-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x4096 : Shape := ⟨2, ![2048, 4096]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S2048x4096 .f32) (main_arg4 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_v13 main_v16
-- ==== Kernel.lean ====
abbrev S8192x1024 : Shape := ⟨2, ![8192, 1024]⟩
abbrev S2048x4096 : Shape := ⟨2, ![2048, 4096]⟩
abbrev S4096 : Shape := ⟨1, ![4096]⟩
abbrev S1024x4096 : Shape := ⟨2, ![1024, 4096]⟩
abbrev S128x1024 : Shape := ⟨2, ![128, 1024]⟩
abbrev S128x4096 : Shape := ⟨2, ![128, 4096]⟩
abbrev S1x4096 : Shape := ⟨2, ![1, 4096]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x4096, .f32⟩
  | .hbm, ⟨4, _⟩ => ⟨S4096, .f32⟩
  | .hbm, ⟨5, _⟩ => ⟨S1024x4096, .f32⟩
  | .hbm, ⟨6, _⟩ => ⟨S1024x4096, .bf16⟩
  | .hbm, ⟨7, _⟩ => ⟨S1024x4096, .f32⟩
  | .hbm, ⟨8, _⟩ => ⟨S1024x4096, .bf16⟩
  | .hbm, ⟨9, _⟩ => ⟨S8192x1024, .f32⟩
  | .hbm, ⟨10, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2048x4096_S1024x4096_0_0 : S2048x4096.Slices ![0, 0] S1024x4096
  bitsLt_bf16_f32 : FTy.bits .bf16 < FTy.bits .f32
  slices_S2048x4096_S1024x4096_1024_0 : S2048x4096.Slices ![1024, 0] S1024x4096
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg1) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x4096 : Shape := ⟨2, ![2048, 4096]⟩
abbrev S4096 : Shape := ⟨1, ![4096]⟩
abbrev S8192x2048 : Shape := ⟨2, ![8192, 2048]⟩
abbrev S8192x4096 : Shape := ⟨2, ![8192, 4096]⟩
abbrev S1x4096 : Shape := ⟨2, ![1, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x4096, .f32⟩
  | .hbm, ⟨4, _⟩ => ⟨S4096, .f32⟩
  | .hbm, ⟨5, _⟩ => ⟨S8192x2048, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.SubLstmSpec.lean ====
/-
  The subtractive-gating LSTM step, one batch row at a time, over the extended reals.

  A row of the recurrent state `h`, a row of the input `x` and a row of the old cell `c` (1024 entries each) meet two
  weight matrices of 1024 rows and 4096 columns — `wh` multiplies the state, `wx` the input; stacked, `wh` over `wx`,
  they are the one matrix of 2048 rows the layer stores — and a bias `b` of 4096 entries:

    pre n  = Σₖ h k · wh k n  +  Σₖ x k · wx k n  +  b n                             (n < 4096)
    gate n = logistic (pre n) = 1 / (1 + e^(−pre n))
    cell j = gate (1024 + j) · c j + gate (2048 + j) − gate j                       (j < 1024)
    hid j  = logistic (cell j) − gate (3072 + j)

  The four quarters of the gate row are the input, forget, candidate and output gates; the new cell SUBTRACTS the
  input gate and the new hidden state SUBTRACTS the output gate. Nothing here needs the entries to be finite: the only
  law used further on is that a sum over 2048 terms is the sum over its first 1024 plus the sum over its last 1024
  (`sum_halves`), which holds in any commutative additive monoid, the extended reals included.
-/
import Idealize.ShloMosaic.PureOps.Ideal
import Idealize.ShloMosaic.Lib.ValueIdx
import Mathlib.Algebra.BigOperators.Fin

noncomputable section

namespace SubLstm

open Idealize.ShloMosaic

/-- Row `k` of the stacked weights: a row of the half that multiplies the recurrent state. -/
abbrev lo (k : Fin 1024) : Fin 2048 := ⟨k.val, by have := k.isLt; omega⟩

/-- Row `1024 + k` of the stacked weights: a row of the half that multiplies the input. -/
abbrev hi (k : Fin 1024) : Fin 2048 := ⟨1024 + k.val, by have := k.isLt; omega⟩

/-- The gate row's four quarters at position `j`: input gate, forget gate, candidate, output gate. -/
abbrev inputCol (j : Fin 1024) : Fin 4096 := ⟨j.val, by have := j.isLt; omega⟩
abbrev forgetCol (j : Fin 1024) : Fin 4096 := ⟨1024 + j.val, by have := j.isLt; omega⟩
abbrev candCol (j : Fin 1024) : Fin 4096 := ⟨2048 + j.val, by have := j.isLt; omega⟩
abbrev outputCol (j : Fin 1024) : Fin 4096 := ⟨3072 + j.val, by have := j.isLt; omega⟩

/-- The pre-activation at gate column `n`: the state row against its weights, the input row against its weights,
    and the bias. -/
def pre (h x : Fin 1024 → EReal) (wh wx : Fin 1024 → Fin 4096 → EReal) (b : Fin 4096 → EReal) (n : Fin 4096) : EReal :=
  (∑ k : Fin 1024, h k * wh k n) + (∑ k : Fin 1024, x k * wx k n) + b n

/-- The gate at column `n`: the logistic function of the pre-activation. -/
def gate (h x : Fin 1024 → EReal) (wh wx : Fin 1024 → Fin 4096 → EReal) (b : Fin 4096 → EReal) (n : Fin 4096) : EReal :=
  Ideal.logistic (pre h x wh wx b n)

/-- The new cell: forget gate times old cell, plus candidate, MINUS input gate. -/
def cell (h x c : Fin 1024 → EReal) (wh wx : Fin 1024 → Fin 4096 → EReal) (b : Fin 4096 → EReal) (j : Fin 1024) : EReal :=
  gate h x wh wx b (forgetCol j) * c j + gate h x wh wx b (candCol j) - gate h x wh wx b (inputCol j)

/-- The new hidden state: the logistic function of the new cell MINUS the output gate. -/
def hid (h x c : Fin 1024 → EReal) (wh wx : Fin 1024 → Fin 4096 → EReal) (b : Fin 4096 → EReal) (j : Fin 1024) : EReal :=
  Ideal.logistic (cell h x c wh wx b j) - gate h x wh wx b (outputCol j)

/-- A sum over 2048 terms is the sum over the first 1024 plus the sum over the last 1024. -/
theorem sum_halves (f : Fin 2048 → EReal) :
    ∑ k : Fin 2048, f k = (∑ k : Fin 1024, f (lo k)) + ∑ k : Fin 1024, f (hi k) := by
  have e := Fin.sum_univ_add (M := EReal) (a := 1024) (b := 1024) f
  refine e.trans ?_
  congr 1

/-! ## Rows, matrices and vectors out of arrays indexed by coordinate tuples -/

/-- Row `r` of a two-axis array. -/
abbrev row {R C : Nat} (X : (⟨2, ![R, C]⟩ : Shape).Idx → EReal) (r : Fin R) : Fin C → EReal := fun k => X (ValueIdx.ix2 r k)

/-- A two-axis array as a function of its two coordinates. -/
abbrev mat {R C : Nat} (W : (⟨2, ![R, C]⟩ : Shape).Idx → EReal) : Fin R → Fin C → EReal := fun k n => W (ValueIdx.ix2 k n)

/-- A one-axis array as a function of its coordinate. -/
abbrev vec {N : Nat} (B : (⟨1, ![N]⟩ : Shape).Idx → EReal) : Fin N → EReal := fun n => B (ValueIdx.ix1 n)

/-- The stacked weights' upper half: the rows that multiply the recurrent state. -/
abbrev upper (W : (⟨2, ![2048, 4096]⟩ : Shape).Idx → EReal) : Fin 1024 → Fin 4096 → EReal := fun k n => W (ValueIdx.ix2 (lo k) n)

/-- The stacked weights' lower half: the rows that multiply the input. -/
abbrev lower (W : (⟨2, ![2048, 4096]⟩ : Shape).Idx → EReal) : Fin 1024 → Fin 4096 → EReal := fun k n => W (ValueIdx.ix2 (hi k) n)

/-! ## The two results as whole arrays

`X0` is the input, `X1` the recurrent state, `X2` the old cell (8192 batch rows of 1024 entries each), `W` the stacked
weights and `B` the bias: entry (r, j) of each result is the row-wise function of batch row `r` of the three. -/

/-- The new hidden state, entry by entry. -/
abbrev newHidden (X0 X1 X2 : (⟨2, ![8192, 1024]⟩ : Shape).Idx → EReal) (W : (⟨2, ![2048, 4096]⟩ : Shape).Idx → EReal)
    (B : (⟨1, ![4096]⟩ : Shape).Idx → EReal) : (⟨2, ![8192, 1024]⟩ : Shape).Idx → EReal :=
  fun i => hid (row X1 (i 0)) (row X0 (i 0)) (row X2 (i 0)) (upper W) (lower W) (vec B) (i 1)

/-- The new cell, entry by entry. -/
abbrev newCell (X0 X1 X2 : (⟨2, ![8192, 1024]⟩ : Shape).Idx → EReal) (W : (⟨2, ![2048, 4096]⟩ : Shape).Idx → EReal)
    (B : (⟨1, ![4096]⟩ : Shape).Idx → EReal) : (⟨2, ![8192, 1024]⟩ : Shape).Idx → EReal :=
  fun i => cell (row X1 (i 0)) (row X0 (i 0)) (row X2 (i 0)) (upper W) (lower W) (vec B) (i 1)

end SubLstm

end
-- ==== Proof.RefValue.lean ====
/-
  The reference program's two results, index by index, are the new hidden state and the new cell of the row-wise
  specification.

  The reference joins a row of the recurrent state and a row of the input into one row of 2048 entries and contracts
  it with all 2048 weight rows at once; the joined row's first 1024 entries are the state's, its last 1024 the input's,
  so the contraction splits into the specification's two half-sums. Its logistic function is spelt out as
  1 / (1 + e^(−z)) with the host's negation, exponential, addition and division: over the extended reals that
  expression IS the logistic function, with the same values at the two infinities. The four gates are the four column
  quarters of the 4096-wide gate row.
-/
import proofs.«133255_j64072322122354_1_alg».proof.Proof.Gen.ReferenceIdeal.Read
import proofs.«133255_j64072322122354_1_alg».proof.Proof.SubLstmSpec
import Idealize.ShloMosaic.Lib.IdealHost

noncomputable section

namespace Cert.ReferenceIdeal.RefValue

open Cert.ReferenceIdeal Cert.ReferenceIdeal.Read Idealize.ShloMosaic Idealize.ShloMosaic.ValueIdx SubLstm

/-- A batch-by-feature argument array, the stacked weights and the bias, as the reference's stages take them. -/
abbrev Rows := (⟨S8192x1024, .f32⟩ : BufTy).Contents (Elt Ideal)
abbrev Weights := (⟨S2048x4096, .f32⟩ : BufTy).Contents (Elt Ideal)
abbrev Bias := (⟨S4096, .f32⟩ : BufTy).Contents (Elt Ideal)

/-- The joined row's entry `k < 1024` is the recurrent state's entry `k`. -/
theorem joined_lo (x0 x1 : Rows) (j : S8192x4096.Idx) (k : Fin 1024) :
    val_main_v0 (F := Ideal) x0 x1 (lidx_main_v1 j (lo k)) = x1 (ix2 (j 0) k) := by
  unfold val_main_v0
  refine concatenate_pair_apply_left (t := S8192x2048) (s₁ := S8192x1024) (s₂ := S8192x1024) (1 : Fin 2) x1 x0
    Gen.concatenates_S8192x1024_S8192x1024_S8192x2048_d1 (lidx_main_v1 j (lo k)) rfl (ix2 (j 0) k) ?_
  intro b
  match b with
  | ⟨0, _⟩ => rfl
  | ⟨1, _⟩ => rfl

/-- The joined row's entry `1024 + k` is the input's entry `k`. -/
theorem joined_hi (x0 x1 : Rows) (j : S8192x4096.Idx) (k : Fin 1024) :
    val_main_v0 (F := Ideal) x0 x1 (lidx_main_v1 j (hi k)) = x0 (ix2 (j 0) k) := by
  unfold val_main_v0
  refine concatenate_pair_apply_right (t := S8192x2048) (s₁ := S8192x1024) (s₂ := S8192x1024) (1 : Fin 2) x1 x0
    Gen.concatenates_S8192x1024_S8192x1024_S8192x2048_d1 (lidx_main_v1 j (hi k)) rfl rfl (ix2 (j 0) k) ?_ ?_
  · intro b hb
    match b with
    | ⟨0, _⟩ => rfl
    | ⟨1, _⟩ => exact absurd rfl hb
  · show k.val + 1024 = 1024 + k.val
    omega

/-- The weight entry the contraction meets at joined position `k` and gate column `j 1`. -/
theorem weight_at (j : S8192x4096.Idx) (k : Fin 2048) : ridx_main_v1 j k = ix2 k (j 1) :=
  funext fun a => Fin.ext (by match a with | ⟨0, _⟩ => rfl | ⟨1, _⟩ => rfl)

/-- The bias entry the twice-broadcast bias reads at gate column `j 1`. -/
theorem bias_at (j : S8192x4096.Idx) : idx_main_v2 (idx_main_v3 j) = ix1 (j 1) :=
  funext fun a => Fin.ext (by match a with | ⟨0, _⟩ => rfl)

/-- The reference's gate array at batch row `j 0` and column `j 1` is the specification's gate of that row. -/
theorem gate_eq (x0 x1 : Rows) (x3 : Weights) (x4 : Bias) (j : S8192x4096.Idx) :
    val_main_v10 (F := Ideal) x0 x1 x3 x4 j
      = gate (row (R := 8192) (C := 1024) x1 (j 0)) (row (R := 8192) (C := 1024) x0 (j 0)) (upper x3) (lower x3) (vec (N := 4096) x4) (j 1) := by
  rw [val_main_v10_apply, val_main_v9_apply, val_main_cst_0_apply, val_main_v8_apply, val_main_v7_apply, val_main_cst_apply,
    val_main_v6_apply, val_main_v5_apply, val_main_v4_apply, val_main_v1_apply, val_main_v3_apply, val_main_v2_apply,
    sum_halves]
  simp only [joined_lo, joined_hi, weight_at, bias_at]
  simp only [Ideal.hostDivf_def, Ideal.addf_def, Ideal.hostUnary_exp_def, Ideal.hostNegf_def, Ideal.negf_def, Ideal.ofBits_def,
    Ideal.ofBits_one_f32]
  rfl

/-- The reference's new cell at batch row `p`, position `q`: forget gate (quarter 1) times the old cell, plus the
    candidate (quarter 2), minus the input gate (quarter 0). -/
theorem cell_at (x0 x1 x2 : Rows) (x3 : Weights) (x4 : Bias) (p : Fin 8192) (q : Fin 1024) :
    val_main_v17 (F := Ideal) x0 x1 x2 x3 x4 (ix2 p q)
      = cell (row (R := 8192) (C := 1024) x1 p) (row (R := 8192) (C := 1024) x0 p) (row (R := 8192) (C := 1024) x2 p)
          (upper x3) (lower x3) (vec (N := 4096) x4) q := by
  rw [val_main_v17_apply, val_main_v16_apply, val_main_v15_apply, val_main_v12_apply, val_main_v13_apply, val_main_v11_apply]
  simp only [gate_eq]
  rfl

/-- The reference's new hidden state at batch row `p`, position `q`: its spelt-out logistic function of the new cell,
    minus the output gate (quarter 3). -/
theorem hid_at (x0 x1 x2 : Rows) (x3 : Weights) (x4 : Bias) (p : Fin 8192) (q : Fin 1024) :
    val_main_v24 (F := Ideal) x0 x1 x2 x3 x4 (ix2 p q)
      = hid (row (R := 8192) (C := 1024) x1 p) (row (R := 8192) (C := 1024) x0 p) (row (R := 8192) (C := 1024) x2 p)
          (upper x3) (lower x3) (vec (N := 4096) x4) q := by
  rw [val_main_v24_apply, val_main_v23_apply, val_main_v22_apply, val_main_cst_2_apply, val_main_v21_apply, val_main_v20_apply,
    val_main_cst_1_apply, val_main_v19_apply, val_main_v18_apply, val_main_v14_apply, cell_at]
  simp only [gate_eq]
  simp only [Ideal.hostDivf_def, Ideal.addf_def, Ideal.subf_def, Ideal.hostUnary_exp_def, Ideal.hostNegf_def, Ideal.negf_def,
    Ideal.ofBits_def, Ideal.ofBits_one_f32]
  rfl

/-- The reference's first result is the new hidden state of its arguments, as one array. -/
theorem hidden_eq (x0 x1 x2 : Rows) (x3 : Weights) (x4 : Bias) :
    val_main_v24 (F := Ideal) x0 x1 x2 x3 x4 = newHidden x0 x1 x2 x3 x4 := by
  funext i
  obtain ⟨p, q, rfl⟩ : ∃ (p : Fin 8192) (q : Fin 1024), i = ix2 p q := ⟨i 0, i 1, eq_ix2 i⟩
  exact hid_at x0 x1 x2 x3 x4 p q

/-- The reference's second result is the new cell of its arguments, as one array. -/
theorem newCell_eq (x0 x1 x2 : Rows) (x3 : Weights) (x4 : Bias) :
    val_main_v17 (F := Ideal) x0 x1 x2 x3 x4 = newCell x0 x1 x2 x3 x4 := by
  funext i
  obtain ⟨p, q, rfl⟩ : ∃ (p : Fin 8192) (q : Fin 1024), i = ix2 p q := ⟨i 0, i 1, eq_ix2 i⟩
  exact cell_at x0 x1 x2 x3 x4 p q

end Cert.ReferenceIdeal.RefValue

end
-- ==== Proof.BlockValue.lean ====
/-
  What the kernel body leaves in its two output blocks, entry by entry, is the row-wise specification of the block's
  rows.

  At one grid point the body holds 128 batch rows of the recurrent state, of the input and of the old cell, both weight
  halves whole and the bias. It forms the 128 × 4096 gate block as the logistic function of: the state block times the
  state's weights, plus the input block times the input's weights, plus the bias laid along every row. Over the
  extended reals each of the two block products, started from zero, is at entry (p, n) the sum over the 1024 contracted
  positions of row `p` against column `n`; narrowing the operands to a shorter float format changes nothing there. The
  two stores then read the four column quarters of the gate block at the same row.
-/
import proofs.«133255_j64072322122354_1_alg».proof.Proof.Gen.KernelIdeal.Value
import proofs.«133255_j64072322122354_1_alg».proof.Proof.SubLstmSpec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx SubLstm

/-! ## The block product at an entry -/

theorem lhs_axis0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_axis1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_axis0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_axis1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- A 128 × 1024 block times a 1024 × 4096 matrix, accumulated from zero: entry (p, n) is row `p` against column `n`. -/
theorem block_product (L : FVec Ideal S128x1024 .bf16) (R : FVec Ideal S1024x4096 .bf16) (p : Fin 128) (n : Fin 4096) :
    matmul dot_S128x1024_S1024x4096_S128x4096_1_0_0_1_n_n none L R (constant S128x4096 .f32 0x00000000#32) (ix2 p n)
      = ∑ k : Fin 1024, L (ix2 p k) * R (ix2 k n) := by
  simp only [matmul]
  rw [Ideal.matmul_constant_zero_apply, ← Equiv.sum_comp (contrEquiv1 dot_S128x1024_S1024x4096_S128x4096_1_0_0_1_n_n 1024 rfl rfl).symm]
  refine Finset.sum_congr rfl fun k _ => ?_
  have hk := contrEquiv1_symm_val dot_S128x1024_S1024x4096_S128x4096_1_0_0_1_n_n 1024 rfl rfl k
  have el : dot_S128x1024_S1024x4096_S128x4096_1_0_0_1_n_n.lhsIdx (ix2 p n) ((contrEquiv1 dot_S128x1024_S1024x4096_S128x4096_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S128x1024_S1024x4096_S128x4096_1_0_0_1_n_n.rhsIdx (ix2 p n) ((contrEquiv1 dot_S128x1024_S1024x4096_S128x4096_1_0_0_1_n_n 1024 rfl rfl).symm k) = ix2 k n := funext fun a => Fin.ext (by
    match a with
    | ⟨0, _⟩ => exact (rhs_axis0 _ _).trans hk
    | ⟨1, _⟩ => exact rhs_axis1 _ _)
  rw [el, er]

/-- The bias, viewed as one row and laid along all 128 rows, reads its entry `n` at every (p, n). -/
theorem bias_rows (B : Vec Ideal S4096 .f32) (p : Fin 128) (n : Fin 4096) :
    broadcastTo S128x4096 (shapeCast S1x4096 B shapeCasts_S4096_S1x4096) broadcasts_S1x4096_S128x4096 (ix2 p n) = B (ix1 n) := by
  refine (broadcastTo_apply _ broadcasts_S1x4096_S128x4096 (ix2 p n) (ix2 (0 : Fin 1) n) (fun a => ?_)).trans ?_
  · match a with
    | ⟨0, _⟩ => show 0 = if (1 : Nat) = 1 then 0 else _; rw [if_pos rfl]
    | ⟨1, _⟩ => show n.val = if (4096 : Nat) = 1 then 0 else n.val; rw [if_neg (by decide)]
  · refine shapeCast_apply B shapeCasts_S4096_S1x4096 (ix2 (0 : Fin 1) n) (ix1 n) ?_
    rw [Shape.rowMajor_val_one, Shape.rowMajor_val_two]
    show n.val = 0 * 4096 + n.val
    omega

/-! ## The gate block -/

/-- Entry (p, n) of the gate block is the specification's gate of block row `p` at column `n`. -/
theorem gates_at (P0 P1 : Vec Ideal S128x1024 .f32) (P2 P3 : Vec Ideal S1024x4096 .bf16) (P4 : Vec Ideal S4096 .f32)
    (p : Fin 128) (n : Fin 4096) :
    k0_pay1 P0 P1 P2 P3 P4 (ix2 p n)
      = gate (row (R := 128) (C := 1024) P0 p) (row (R := 128) (C := 1024) P1 p) (mat (R := 1024) (C := 4096) P2)
          (mat (R := 1024) (C := 4096) P3) (vec (N := 4096) P4) n := by
  unfold k0_pay1
  rw [shapeCast_self, shapeCast_self]
  unfold gate pre
  refine congrArg Ideal.logistic ?_
  refine congrArg₂ (· + ·) (congrArg₂ (· + ·) ?_ ?_) ?_
  · exact block_product _ _ p n
  · exact block_product _ _ p n
  · exact bias_rows P4 p n

/-! ## The two stored blocks

The generated value leg names, for each stored block, where its entry (p, q) reads the gate block and the old-cell
block; those places are row `p` at the four quarters' column for `q`. -/

theorem forget_idx6 (p : Fin 128) (q : Fin 1024) : Value.ix6_0 (ix2 p q) = ix2 p (forgetCol q) :=
  funext fun a => Fin.ext (by
    match a with
    | ⟨0, _⟩ => rfl
    | ⟨1, _⟩ => show q.val + 1024 = 1024 + q.val; omega)
theorem cell_idx6 (p : Fin 128) (q : Fin 1024) : Value.ix6_1 (ix2 p q) = ix2 p q :=
  funext fun a => Fin.ext (by
    match a with
    | ⟨0, _⟩ => rfl
    | ⟨1, _⟩ => rfl)
theorem cand_idx6 (p : Fin 128) (q : Fin 1024) : Value.ix6_2 (ix2 p q) = ix2 p (candCol q) :=
  funext fun a => Fin.ext (by
    match a with
    | ⟨0, _⟩ => rfl
    | ⟨1, _⟩ => show q.val + 2048 = 2048 + q.val; omega)
theorem input_idx6 (p : Fin 128) (q : Fin 1024) : Value.ix6_3 (ix2 p q) = ix2 p (inputCol q) :=
  funext fun a => Fin.ext (by
    match a with
    | ⟨0, _⟩ => rfl
    | ⟨1, _⟩ => rfl)
theorem output_idx6 (p : Fin 128) (q : Fin 1024) : Value.ix6_4 (ix2 p q) = ix2 p (outputCol q) :=
  funext fun a => Fin.ext (by
    match a with
    | ⟨0, _⟩ => rfl
    | ⟨1, _⟩ => show q.val + 3072 = 3072 + q.val; omega)
theorem forget_idx7 (p : Fin 128) (q : Fin 1024) : Value.ix7_0 (ix2 p q) = ix2 p (forgetCol q) :=
  funext fun a => Fin.ext (by
    match a with
    | ⟨0, _⟩ => rfl
    | ⟨1, _⟩ => show q.val + 1024 = 1024 + q.val; omega)
theorem cell_idx7 (p : Fin 128) (q : Fin 1024) : Value.ix7_1 (ix2 p q) = ix2 p q :=
  funext fun a => Fin.ext (by
    match a with
    | ⟨0, _⟩ => rfl
    | ⟨1, _⟩ => rfl)
theorem cand_idx7 (p : Fin 128) (q : Fin 1024) : Value.ix7_2 (ix2 p q) = ix2 p (candCol q) :=
  funext fun a => Fin.ext (by
    match a with
    | ⟨0, _⟩ => rfl
    | ⟨1, _⟩ => show q.val + 2048 = 2048 + q.val; omega)
theorem input_idx7 (p : Fin 128) (q : Fin 1024) : Value.ix7_3 (ix2 p q) = ix2 p (inputCol q) :=
  funext fun a => Fin.ext (by
    match a with
    | ⟨0, _⟩ => rfl
    | ⟨1, _⟩ => rfl)

/-- Entry (p, q) of the block stored as the new cell is the specification's new cell of block row `p` at `q`. -/
theorem cell_block_at (P0 P1 : Vec Ideal S128x1024 .f32) (P2 P3 : Vec Ideal S1024x4096 .bf16) (P4 : Vec Ideal S4096 .f32)
    (P5 : Vec Ideal S128x1024 .f32) (p : Fin 128) (q : Fin 1024) :
    Value.E7 P0 P1 P2 P3 P4 P5 (ix2 p q)
      = cell (row (R := 128) (C := 1024) P0 p) (row (R := 128) (C := 1024) P1 p) (row (R := 128) (C := 1024) P5 p)
          (mat (R := 1024) (C := 4096) P2) (mat (R := 1024) (C := 4096) P3) (vec (N := 4096) P4) q := by
  have e : Value.E7 P0 P1 P2 P3 P4 P5 (ix2 p q)
      = FloatOps.subf (FloatOps.addf (FloatOps.mulf (k0_pay1 P0 P1 P2 P3 P4 (Value.ix7_0 (ix2 p q))) (P5 (Value.ix7_1 (ix2 p q))))
          (k0_pay1 P0 P1 P2 P3 P4 (Value.ix7_2 (ix2 p q)))) (k0_pay1 P0 P1 P2 P3 P4 (Value.ix7_3 (ix2 p q))) := rfl
  rw [e, forget_idx7, cell_idx7, cand_idx7, input_idx7]
  simp only [gates_at]
  rfl

/-- Entry (p, q) of the block stored as the new hidden state is the specification's new hidden state of block row `p`
    at `q`. -/
theorem hidden_block_at (P0 P1 : Vec Ideal S128x1024 .f32) (P2 P3 : Vec Ideal S1024x4096 .bf16) (P4 : Vec Ideal S4096 .f32)
    (P5 : Vec Ideal S128x1024 .f32) (p : Fin 128) (q : Fin 1024) :
    Value.E6 P0 P1 P2 P3 P4 P5 (ix2 p q)
      = hid (row (R := 128) (C := 1024) P0 p) (row (R := 128) (C := 1024) P1 p) (row (R := 128) (C := 1024) P5 p)
          (mat (R := 1024) (C := 4096) P2) (mat (R := 1024) (C := 4096) P3) (vec (N := 4096) P4) q := by
  have e : Value.E6 P0 P1 P2 P3 P4 P5 (ix2 p q)
      = FloatOps.subf (FloatOps.logistic (FloatOps.subf (FloatOps.addf (FloatOps.mulf (k0_pay1 P0 P1 P2 P3 P4 (Value.ix6_0 (ix2 p q))) (P5 (Value.ix6_1 (ix2 p q))))
          (k0_pay1 P0 P1 P2 P3 P4 (Value.ix6_2 (ix2 p q)))) (k0_pay1 P0 P1 P2 P3 P4 (Value.ix6_3 (ix2 p q))))) (k0_pay1 P0 P1 P2 P3 P4 (Value.ix6_4 (ix2 p q))) := rfl
  rw [e, forget_idx6, cell_idx6, cand_idx6, input_idx6, output_idx6]
  simp only [gates_at]
  rfl

/-! ## What one grid point leaves in its two output blocks

The body loads every operand block whole (each load's rectangle is the whole block, from offset zero) and stores each
result block whole, so an output block after the body is the stored value itself. `x0`, `x1`, `x2` are the point's
blocks of the recurrent state, the input and the old cell, `x3` and `x4` the two weight halves, `x5` the bias. -/

theorem zero2 : (![0, 0] : Fin 2 → Nat) = fun _ => 0 := funext fun a => by
  match a with
  | ⟨0, _⟩ => rfl
  | ⟨1, _⟩ => rfl

theorem zero1 : (![0] : Fin 1 → Nat) = fun _ => 0 := funext fun a => by
  match a with
  | ⟨0, _⟩ => rfl

/-- The block written back as the new hidden state, entry `y`: the specification's new hidden state of block row `y 0`
    at position `y 1`. -/
theorem hidden_out (x0 x1 x2 : Vec Ideal S128x1024 .f32) (x3 x4 : Vec Ideal S1024x4096 .bf16) (x5 : Vec Ideal S4096 .f32)
    (y : S128x1024.Idx) :
    out0_6 x0 x1 x2 x3 x4 x5 y
      = hid (row (R := 128) (C := 1024) x0 (y 0)) (row (R := 128) (C := 1024) x1 (y 0)) (row (R := 128) (C := 1024) x2 (y 0))
          (mat (R := 1024) (C := 4096) x3) (mat (R := 1024) (C := 4096) x4) (vec (N := 4096) x5) (y 1) := by
  unfold out0_6
  rw [Value.canon6_eq]
  simp only [View.ld_unit_zero (S := S128x1024) zero2, View.ld_unit_zero (S := S1024x4096) zero2, View.ld_unit_zero (S := S4096) zero1]
  obtain ⟨p, q, rfl⟩ : ∃ (p : Fin 128) (q : Fin 1024), y = ix2 p q := ⟨y 0, y 1, eq_ix2 y⟩
  exact hidden_block_at x0 x1 x3 x4 x5 x2 p q

/-- The block written back as the new cell, entry `y`: the specification's new cell of block row `y 0` at position
    `y 1`. -/
theorem cell_out (x0 x1 x2 : Vec Ideal S128x1024 .f32) (x3 x4 : Vec Ideal S1024x4096 .bf16) (x5 : Vec Ideal S4096 .f32)
    (y : S128x1024.Idx) :
    out0_7 x0 x1 x2 x3 x4 x5 y
      = cell (row (R := 128) (C := 1024) x0 (y 0)) (row (R := 128) (C := 1024) x1 (y 0)) (row (R := 128) (C := 1024) x2 (y 0))
          (mat (R := 1024) (C := 4096) x3) (mat (R := 1024) (C := 4096) x4) (vec (N := 4096) x5) (y 1) := by
  unfold out0_7
  rw [Value.canon7_eq]
  simp only [View.ld_unit_zero (S := S128x1024) zero2, View.ld_unit_zero (S := S1024x4096) zero2, View.ld_unit_zero (S := S4096) zero1]
  obtain ⟨p, q, rfl⟩ : ∃ (p : Fin 128) (q : Fin 1024), y = ix2 p q := ⟨y 0, y 1, eq_ix2 y⟩
  exact cell_block_at x0 x1 x3 x4 x5 x2 p q

end Cert.KernelIdeal.Block

end
-- ==== Proof.ArrayValue.lean ====
/-
  From blocks to whole arrays: after the kernel's run its two result arrays are the new hidden state and the new cell
  of the argument arrays, entry by entry.

  The grid has 64 points. Point `t` works on batch rows 128·t … 128·t + 127: its blocks of the recurrent state, the
  input and the old cell are those rows of the three argument arrays, and the two blocks it writes back are those rows
  of the two results. Both weight blocks and the bias block are the same at every point: whole arrays. The two weight
  arrays are made before the region from the stacked weights — rows 0 … 1023 for the state, rows 1024 … 2047 for the
  input, each narrowed to a shorter float format, which over the extended reals changes nothing. Every batch row `r`
  lies in the block of exactly the point `r / 128`, so the 64 written-back blocks fill each result array.
-/
import proofs.«133255_j64072322122354_1_alg».proof.Proof.Gen.KernelIdeal.Value
import proofs.«133255_j64072322122354_1_alg».proof.Proof.BlockValue
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx SubLstm
open Idealize.ShloMosaic.Pipeline (Dat)

variable (m : (ℓ : Loc nD τ sig) → Buf (Elt Ideal) ℓ) (ρ : Dev nD → PrngReg)

/-! ## The argument arrays and the two results -/

/-- The input, the recurrent state, the old cell, the stacked weights and the bias on core `c`, as launched. -/
abbrev inputArr (c : Dev nD) : S8192x1024.Idx → EReal := m ((c : Thread nD τ).loc main_arg0)
abbrev stateArr (c : Dev nD) : S8192x1024.Idx → EReal := m ((c : Thread nD τ).loc main_arg1)
abbrev oldCellArr (c : Dev nD) : S8192x1024.Idx → EReal := m ((c : Thread nD τ).loc main_arg2)
abbrev weightArr (c : Dev nD) : S2048x4096.Idx → EReal := m ((c : Thread nD τ).loc main_arg3)
abbrev biasArr (c : Dev nD) : S4096.Idx → EReal := m ((c : Thread nD τ).loc main_arg4)

/-- The new hidden state and the new cell of core `c`'s arguments. -/
abbrev hiddenArr (c : Dev nD) : S8192x1024.Idx → EReal :=
  newHidden (inputArr m c) (stateArr m c) (oldCellArr m c) (weightArr m c) (biasArr m c)
abbrev cellArr (c : Dev nD) : S8192x1024.Idx → EReal :=
  newCell (inputArr m c) (stateArr m c) (oldCellArr m c) (weightArr m c) (biasArr m c)

/-! ## The index maps, decided over the 64 grid points -/

/-- Point `t`'s row blocks (state, input, old cell, both results) are block `t` along the batch axis and block 0 along
    the feature axis; the weight blocks and the bias block are block 0 on every axis. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- There are 64 points. -/
theorem point_lt : ∀ t : Fin cfg0.N, t.val < 64 := (by decide +kernel : ∀ t : Fin grid0.N, t.val < 64)

/-- Every number below 64 is a point. -/
theorem point_of : ∀ n : Fin 64, ∃ t : Fin cfg0.N, t.val = n.val :=
  (by decide +kernel : ∀ n : Fin 64, ∃ t : Fin grid0.N, t.val = n.val)

/-- Batch row `128·t + p`: row `p` of point `t`'s blocks. -/
abbrev batchRow (t : Fin cfg0.N) (p : Fin 128) : Fin 8192 :=
  ⟨128 * t.val + p.val, by have := point_lt t; have := p.isLt; omega⟩

/-! ## The operand blocks at a point, as vectors of their literal shapes -/

abbrev stateBlk (c : Dev nD) (t : Fin cfg0.N) : Vec Ideal S128x1024 .f32 := iblk m c 0 t
abbrev inputBlk (c : Dev nD) (t : Fin cfg0.N) : Vec Ideal S128x1024 .f32 := iblk m c 1 t
abbrev oldCellBlk (c : Dev nD) (t : Fin cfg0.N) : Vec Ideal S128x1024 .f32 := iblk m c 2 t
abbrev stateWtBlk (c : Dev nD) (t : Fin cfg0.N) : Vec Ideal S1024x4096 .bf16 := iblk m c 3 t
abbrev inputWtBlk (c : Dev nD) (t : Fin cfg0.N) : Vec Ideal S1024x4096 .bf16 := iblk m c 4 t
abbrev biasBlk (c : Dev nD) (t : Fin cfg0.N) : Vec Ideal S4096 .f32 := iblk m c 5 t

/-- Row `p` of point `t`'s state block is batch row `128·t + p` of the recurrent state. -/
theorem state_rows (c : Dev nD) (t : Fin cfg0.N) (p : Fin 128) :
    row (R := 128) (C := 1024) (stateBlk m c t) p = row (R := 8192) (C := 1024) (stateArr m c) (batchRow t p) := by
  obtain ⟨e0, e1, -⟩ := index_facts t
  funext k
  show V m c main_arg1 (((cfg0.win 0).blk t).view.emb (ix2 p k)) = m ((c : Thread nD τ).loc main_arg1) (ix2 (batchRow t p) k)
  rw [V_main_arg1]
  refine congrArg (m ((c : Thread nD τ).loc main_arg1)) ?_
  funext a; apply Fin.ext
  match a with
  | ⟨0, _⟩ => show win0_0.index t (0 : Fin 2) * 128 + 1 * p.val = 128 * t.val + p.val; omega
  | ⟨1, _⟩ => show win0_0.index t (1 : Fin 2) * 1024 + 1 * k.val = k.val; omega

/-- Row `p` of point `t`'s input block is batch row `128·t + p` of the input. -/
theorem input_rows (c : Dev nD) (t : Fin cfg0.N) (p : Fin 128) :
    row (R := 128) (C := 1024) (inputBlk m c t) p = row (R := 8192) (C := 1024) (inputArr m c) (batchRow t p) := by
  obtain ⟨-, -, e0, e1, -⟩ := index_facts t
  funext k
  show V m c main_arg0 (((cfg0.win 1).blk t).view.emb (ix2 p k)) = m ((c : Thread nD τ).loc main_arg0) (ix2 (batchRow t p) k)
  rw [V_main_arg0]
  refine congrArg (m ((c : Thread nD τ).loc main_arg0)) ?_
  funext a; apply Fin.ext
  match a with
  | ⟨0, _⟩ => show win0_1.index t (0 : Fin 2) * 128 + 1 * p.val = 128 * t.val + p.val; omega
  | ⟨1, _⟩ => show win0_1.index t (1 : Fin 2) * 1024 + 1 * k.val = k.val; omega

/-- Row `p` of point `t`'s old-cell block is batch row `128·t + p` of the old cell. -/
theorem oldCell_rows (c : Dev nD) (t : Fin cfg0.N) (p : Fin 128) :
    row (R := 128) (C := 1024) (oldCellBlk m c t) p = row (R := 8192) (C := 1024) (oldCellArr m c) (batchRow t p) := by
  obtain ⟨-, -, -, -, e0, e1, -⟩ := index_facts t
  funext k
  show V m c main_arg2 (((cfg0.win 2).blk t).view.emb (ix2 p k)) = m ((c : Thread nD τ).loc main_arg2) (ix2 (batchRow t p) k)
  rw [V_main_arg2]
  refine congrArg (m ((c : Thread nD τ).loc main_arg2)) ?_
  funext a; apply Fin.ext
  match a with
  | ⟨0, _⟩ => show win0_2.index t (0 : Fin 2) * 128 + 1 * p.val = 128 * t.val + p.val; omega
  | ⟨1, _⟩ => show win0_2.index t (1 : Fin 2) * 1024 + 1 * k.val = k.val; omega

/-- The array the region finds as the state's weights: rows 0 … 1023 of the stacked weights, narrowed. -/
theorem stateWt_made (c : Dev nD) : (V m c main_v1 : S1024x4096.Idx → EReal)
    = truncf (F := Ideal) .bf16 (extractStridedSlice S1024x4096 ![0, 0] (weightArr m c) slices_S2048x4096_S1024x4096_0_0) bitsLt_bf16_f32 := by
  dsimp only [Gen.V, Gen.hostOps0]; after_results

/-- The array the region finds as the input's weights: rows 1024 … 2047 of the stacked weights, narrowed. -/
theorem inputWt_made (c : Dev nD) : (V m c main_v3 : S1024x4096.Idx → EReal)
    = truncf (F := Ideal) .bf16 (extractStridedSlice S1024x4096 ![1024, 0] (weightArr m c) slices_S2048x4096_S1024x4096_1024_0) bitsLt_bf16_f32 := by
  dsimp only [Gen.V, Gen.hostOps0]; after_results

/-- At every point the state's weight block is the upper half of the stacked weights. -/
theorem stateWt_eq (c : Dev nD) (t : Fin cfg0.N) : mat (R := 1024) (C := 4096) (stateWtBlk m c t) = upper (weightArr m c) := by
  obtain ⟨-, -, -, -, -, -, e0, e1, -⟩ := index_facts t
  funext k n
  show (V m c main_v1 : S1024x4096.Idx → EReal) (((cfg0.win 3).blk t).view.emb (ix2 k n)) = weightArr m c (ix2 (lo k) n)
  have e : ((cfg0.win 3).blk t).view.emb (ix2 k n) = ix2 k n := by
    funext a; apply Fin.ext
    match a with
    | ⟨0, _⟩ => show win0_3.index t (0 : Fin 2) * 1024 + 1 * k.val = k.val; omega
    | ⟨1, _⟩ => show win0_3.index t (1 : Fin 2) * 4096 + 1 * n.val = n.val; omega
  rw [e, stateWt_made]
  exact extractStridedSlice_apply ![0, 0] (weightArr m c) slices_S2048x4096_S1024x4096_0_0 (ix2 k n) (ix2 (lo k) n) (fun a => match a with
    | ⟨0, _⟩ => by show k.val = 0 + k.val; omega
    | ⟨1, _⟩ => by show n.val = 0 + n.val; omega)

/-- At every point the input's weight block is the lower half of the stacked weights. -/
theorem inputWt_eq (c : Dev nD) (t : Fin cfg0.N) : mat (R := 1024) (C := 4096) (inputWtBlk m c t) = lower (weightArr m c) := by
  obtain ⟨-, -, -, -, -, -, -, -, e0, e1, -⟩ := index_facts t
  funext k n
  show (V m c main_v3 : S1024x4096.Idx → EReal) (((cfg0.win 4).blk t).view.emb (ix2 k n)) = weightArr m c (ix2 (hi k) n)
  have e : ((cfg0.win 4).blk t).view.emb (ix2 k n) = ix2 k n := by
    funext a; apply Fin.ext
    match a with
    | ⟨0, _⟩ => show win0_4.index t (0 : Fin 2) * 1024 + 1 * k.val = k.val; omega
    | ⟨1, _⟩ => show win0_4.index t (1 : Fin 2) * 4096 + 1 * n.val = n.val; omega
  rw [e, inputWt_made]
  exact extractStridedSlice_apply ![1024, 0] (weightArr m c) slices_S2048x4096_S1024x4096_1024_0 (ix2 k n) (ix2 (hi k) n) (fun a => match a with
    | ⟨0, _⟩ => by show 1024 + k.val = 1024 + k.val; rfl
    | ⟨1, _⟩ => by show n.val = 0 + n.val; omega)

/-- At every point the bias block is the bias. -/
theorem bias_eq (c : Dev nD) (t : Fin cfg0.N) : vec (N := 4096) (biasBlk m c t) = vec (N := 4096) (biasArr m c) := by
  obtain ⟨-, -, -, -, -, -, -, -, -, -, e0, -⟩ := index_facts t
  funext n
  show V m c main_arg4 (((cfg0.win 5).blk t).view.emb (ix1 n)) = m ((c : Thread nD τ).loc main_arg4) (ix1 n)
  rw [V_main_arg4]
  refine congrArg (m ((c : Thread nD τ).loc main_arg4)) ?_
  funext a; apply Fin.ext
  match a with
  | ⟨0, _⟩ => show win0_5.index t (0 : Fin 1) * 4096 + 1 * n.val = n.val; omega

/-! ## What point `t` writes back -/

/-- Entry (p, q) of a result block of point `t` lands at batch row `128·t + p`, position `q`. -/
theorem hidden_lands (t : Fin cfg0.N) (p : Fin 128) (q : Fin 1024) :
    ((cfg0.win 6).blk t).view.emb (ix2 p q) = ix2 (batchRow t p) q := by
  obtain ⟨-, -, -, -, -, -, -, -, -, -, -, e0, e1, -⟩ := index_facts t
  funext a; apply Fin.ext
  match a with
  | ⟨0, _⟩ => show win0_6.index t (0 : Fin 2) * 128 + 1 * p.val = 128 * t.val + p.val; omega
  | ⟨1, _⟩ => show win0_6.index t (1 : Fin 2) * 1024 + 1 * q.val = q.val; omega

theorem cell_lands (t : Fin cfg0.N) (p : Fin 128) (q : Fin 1024) :
    ((cfg0.win 7).blk t).view.emb (ix2 p q) = ix2 (batchRow t p) q := by
  obtain ⟨-, -, -, -, -, -, -, -, -, -, -, -, -, e0, e1⟩ := index_facts t
  funext a; apply Fin.ext
  match a with
  | ⟨0, _⟩ => show win0_7.index t (0 : Fin 2) * 128 + 1 * p.val = 128 * t.val + p.val; omega
  | ⟨1, _⟩ => show win0_7.index t (1 : Fin 2) * 1024 + 1 * q.val = q.val; omega

/-- The row-wise functions respect equality of each operand. -/
theorem hid_congr {h h' x x' c c' : Fin 1024 → EReal} {wh wh' wx wx' : Fin 1024 → Fin 4096 → EReal} {b b' : Fin 4096 → EReal}
    (eh : h = h') (ex : x = x') (ec : c = c') (ewh : wh = wh') (ewx : wx = wx') (eb : b = b') (j : Fin 1024) :
    hid h x c wh wx b j = hid h' x' c' wh' wx' b' j := by rw [eh, ex, ec, ewh, ewx, eb]

theorem cell_congr {h h' x x' c c' : Fin 1024 → EReal} {wh wh' wx wx' : Fin 1024 → Fin 4096 → EReal} {b b' : Fin 4096 → EReal}
    (eh : h = h') (ex : x = x') (ec : c = c') (ewh : wh = wh') (ewx : wx = wx') (eb : b = b') (j : Fin 1024) :
    cell h x c wh wx b j = cell h' x' c' wh' wx' b' j := by rw [eh, ex, ec, ewh, ewx, eb]

/-- What point `t` writes back to the first result is block `t` of the new hidden state of the arguments. -/
theorem flushed_hidden (c : Dev nD) (t : Fin cfg0.N) :
    (dats m 0 c).flushed 6 t = ((cfg0.win 6).blk t).view.read (Elt Ideal) (hiddenArr m c) := by
  rw [Value.flushed6]
  funext y
  obtain ⟨p, q, rfl⟩ : ∃ (p : Fin 128) (q : Fin 1024), y = ix2 p q := ⟨y 0, y 1, eq_ix2 (n0 := 128) (n1 := 1024) y⟩
  show out0_6 (stateBlk m c t) (inputBlk m c t) (oldCellBlk m c t) (stateWtBlk m c t) (inputWtBlk m c t) (biasBlk m c t) (ix2 p q)
    = hiddenArr m c (((cfg0.win 6).blk t).view.emb (ix2 p q))
  rw [hidden_lands t p q]
  refine (Block.hidden_out (stateBlk m c t) (inputBlk m c t) (oldCellBlk m c t) (stateWtBlk m c t) (inputWtBlk m c t) (biasBlk m c t) (ix2 p q)).trans ?_
  exact hid_congr (state_rows m c t p) (input_rows m c t p) (oldCell_rows m c t p) (stateWt_eq m c t) (inputWt_eq m c t) (bias_eq m c t) q

/-- What point `t` writes back to the second result is block `t` of the new cell of the arguments. -/
theorem flushed_cell (c : Dev nD) (t : Fin cfg0.N) :
    (dats m 0 c).flushed 7 t = ((cfg0.win 7).blk t).view.read (Elt Ideal) (cellArr m c) := by
  rw [Value.flushed7]
  funext y
  obtain ⟨p, q, rfl⟩ : ∃ (p : Fin 128) (q : Fin 1024), y = ix2 p q := ⟨y 0, y 1, eq_ix2 (n0 := 128) (n1 := 1024) y⟩
  show out0_7 (stateBlk m c t) (inputBlk m c t) (oldCellBlk m c t) (stateWtBlk m c t) (inputWtBlk m c t) (biasBlk m c t) (ix2 p q)
    = cellArr m c (((cfg0.win 7).blk t).view.emb (ix2 p q))
  rw [cell_lands t p q]
  refine (Block.cell_out (stateBlk m c t) (inputBlk m c t) (oldCellBlk m c t) (stateWtBlk m c t) (inputWtBlk m c t) (biasBlk m c t) (ix2 p q)).trans ?_
  exact cell_congr (state_rows m c t p) (input_rows m c t p) (oldCell_rows m c t p) (stateWt_eq m c t) (inputWt_eq m c t) (bias_eq m c t) q

/-! ## The 64 blocks fill each result -/

/-- An index of the first result is in point `t`'s block iff each coordinate is in the block's range on its axis. -/
theorem mem_hidden_blk (t : Fin cfg0.N) (i : S8192x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v4_0).slice (win0_6.rect t)).set ↔ _
  rw [View.set_slice_whole, Rect.mem_set_unit]
  exact Iff.rfl

theorem mem_cell_blk (t : Fin cfg0.N) (i : S8192x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v4_1).slice (win0_7.rect t)).set ↔ _
  rw [View.set_slice_whole, Rect.mem_set_unit]
  exact Iff.rfl

/-- Batch row `r` is written by point `r / 128`. -/
theorem hidden_covered (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, ht⟩ := point_of ⟨(i 0).val / 128, by omega⟩
  have ht' : t.val = (i 0).val / 128 := ht
  obtain ⟨-, -, -, -, -, -, -, -, -, -, -, e0, e1, -⟩ := index_facts t
  refine ⟨t, flush0_6 t, ?_⟩
  rw [mem_hidden_blk]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1024 ≤ (i 1).val ∧ (i 1).val < win0_6.index t (1 : Fin 2) * 1024 + 1024; omega

theorem cell_covered (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ := point_of ⟨(i 0).val / 128, by omega⟩
  have ht' : t.val = (i 0).val / 128 := ht
  obtain ⟨-, -, -, -, -, -, -, -, -, -, -, -, -, e0, e1⟩ := index_facts t
  refine ⟨t, flush0_7 t, ?_⟩
  rw [mem_cell_blk]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1024 ≤ (i 1).val ∧ (i 1).val < win0_7.index t (1 : Fin 2) * 1024 + 1024; omega

/-- After the run the first result array is the new hidden state of the arguments. -/
theorem final_hidden (c : Dev nD) : (dats m 0 c).arrAt 6 cfg0.N = hiddenArr m c :=
  (dats m 0 c).arrAt_eq_of_cover 6 (hiddenArr m c) (fun t _ => flushed_hidden m c t) hidden_covered

/-- After the run the second result array is the new cell of the arguments. -/
theorem final_cell (c : Dev nD) : (dats m 0 c).arrAt 7 cfg0.N = cellArr m c :=
  (dats m 0 c).arrAt_eq_of_cover 7 (cellArr m c) (fun t _ => flushed_cell m c t) cell_covered

/-! ## The run, read -/

/-- Every weakly fair execution of the kernel's program terminates with the two results at the new hidden state and the
    new cell of the arguments, the arguments unchanged. -/
theorem run : θ_run defs (onTc (τ := τ) (main (F := Ideal))) ⟨m, fun _ => 0, ρ⟩ fun r => ∀ c : Dev nD,
      r.2.mem ((c : Thread nD τ).loc main_v4_0) = hiddenArr m c
      ∧ r.2.mem ((c : Thread nD τ).loc main_v4_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_hidden m c), (h c).2.1.trans (final_cell m c), (h c).2.2⟩)
    (Value.run_blocks m ρ)

end Cert.KernelIdeal.Whole

end
-- ==== Proof.lean ====
/-
  A subtractive-gating LSTM step, fused into one kernel, against its plain reference: over the extended reals the two
  compute the same new hidden state and the same new cell.

  The reference joins each batch row of the recurrent state with the same row of the input into one row of 2048
  entries, multiplies it by the stacked 2048 × 4096 weights, adds the bias, applies the logistic function
  1 / (1 + e^(−z)) spelt out in four host operations, cuts the 4096-wide gate row into its four quarters (input gate,
  forget gate, candidate, output gate) and forms

    new cell   = forget gate · old cell + candidate − input gate,
    new hidden = logistic (new cell) − output gate.

  The kernel walks the batch in 64 blocks of 128 rows. It never joins the two rows: it multiplies the state block by the
  upper half of the weights and the input block by the lower half, each product accumulated from zero, and adds the two
  products; it narrows the operands of the products to a shorter float format first; and its logistic function is one
  operation. Over the extended reals the narrowing is the identity, the one-operation logistic function is by definition
  the spelt-out one (with the same values at the two infinities), and a sum over the 2048 joined positions is the sum over
  the first 1024 plus the sum over the last 1024 — true in every commutative additive monoid, so no finiteness of the
  inputs is used anywhere. Everything else is where an entry sits: point `t`'s block row `p` is batch row 128·t + p, and
  the 64 blocks written back fill each result.

  The modules: SubLstmSpec (the step, row by row, and the sum split), RefValue (the reference's two results are the
  specification's), BlockValue (what one grid point leaves in its two output blocks is the specification of the block's
  rows), ArrayValue (the blocks are rows of the arguments, the weight blocks the two halves of the stacked weights; the
  run's two result arrays are the specification's). The three frames are the generated ones, the reference's being its
  generated run with the results dropped; the idealization rewrote nothing, so there is nothing to preserve.
-/
import proofs.«133255_j64072322122354_1_alg».proof.Defs
import proofs.«133255_j64072322122354_1_alg».proof.Proof.Gen.Kernel
import proofs.«133255_j64072322122354_1_alg».proof.Proof.Gen.Kernel.Skeleton
import proofs.«133255_j64072322122354_1_alg».proof.Proof.Gen.Kernel.Launch
import proofs.«133255_j64072322122354_1_alg».proof.Proof.Gen.Kernel.Points
import proofs.«133255_j64072322122354_1_alg».proof.Proof.Gen.Kernel.Frame
import proofs.«133255_j64072322122354_1_alg».proof.Proof.Gen.KernelIdeal
import proofs.«133255_j64072322122354_1_alg».proof.Proof.Gen.KernelIdeal.Skeleton
import proofs.«133255_j64072322122354_1_alg».proof.Proof.Gen.KernelIdeal.Launch
import proofs.«133255_j64072322122354_1_alg».proof.Proof.Gen.KernelIdeal.Points
import proofs.«133255_j64072322122354_1_alg».proof.Proof.Gen.KernelIdeal.Frame
import proofs.«133255_j64072322122354_1_alg».proof.Proof.Gen.ReferenceIdeal
import proofs.«133255_j64072322122354_1_alg».proof.Proof.Gen.Pre_finite_inputs
import proofs.«133255_j64072322122354_1_alg».proof.Proof.Gen.KernelIdeal.Value
import proofs.«133255_j64072322122354_1_alg».proof.Proof.Gen.ReferenceIdeal.Run
import proofs.«133255_j64072322122354_1_alg».proof.Proof.Gen.ReferenceIdeal.Read
import proofs.«133255_j64072322122354_1_alg».proof.Proof.SubLstmSpec
import proofs.«133255_j64072322122354_1_alg».proof.Proof.RefValue
import proofs.«133255_j64072322122354_1_alg».proof.Proof.BlockValue
import proofs.«133255_j64072322122354_1_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the five arguments, both programs end with the new hidden state and the new cell of
    those arguments: the kernel by its run read block by block, the reference by its run read operation by operation. -/
theorem algebraic : Cert.algebraic_KernelIdeal_ReferenceIdeal := by
  intro m ρ m' ρ' _ hagree
  refine ⟨fun c => Cert.KernelIdeal.Whole.hiddenArr m c, fun c => Cert.KernelIdeal.Whole.cellArr m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v24_eq, Cert.ReferenceIdeal.RefValue.hidden_eq,
      (hagree c).1, (hagree c).2.1, (hagree c).2.2.1, (hagree c).2.2.2.1, (hagree c).2.2.2.2]
  · rw [Cert.ReferenceIdeal.Read.val_main_v17_eq, Cert.ReferenceIdeal.RefValue.newCell_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
